-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048x8192 : Shape := ⟨3, ![4, 2048, 8192]⟩
abbrev S4x1x8192 : Shape := ⟨3, ![4, 1, 8192]⟩
abbrev S4x8192x2048 : Shape := ⟨3, ![4, 8192, 2048]⟩
abbrev S4x1x2048 : Shape := ⟨3, ![4, 1, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048x8192 : S_.BroadcastsInDim S4x2048x8192 (![] : Fin 0 → Fin S4x2048x8192.rank)
  reducesTo_S4x2048x8192_S_d0_1_2 : S4x2048x8192.ReducesTo [0, 1, 2] S_
  bcast_S_S4x1x8192 : S_.BroadcastsInDim S4x1x8192 (![] : Fin 0 → Fin S4x1x8192.rank)
  reducesTo_S4x1x8192_S_d0_1_2 : S4x1x8192.ReducesTo [0, 1, 2] S_
  bcast_S_S4x8192x2048 : S_.BroadcastsInDim S4x8192x2048 (![] : Fin 0 → Fin S4x8192x2048.rank)
  reducesTo_S4x8192x2048_S_d0_1_2 : S4x8192x2048.ReducesTo [0, 1, 2] S_
  bcast_S_S4x1x2048 : S_.BroadcastsInDim S4x1x2048 (![] : Fin 0 → Fin S4x1x2048.rank)
  reducesTo_S4x1x2048_S_d0_1_2 : S4x1x2048.ReducesTo [0, 1, 2] S_

variable [Facts]

def fn_part1 {F : FTy → Type} [FloatOps F] (main_arg4 : FVec F S4x1x2048 .f32) (main_v13 : IVec S_ 1) (main_v16 : IVec S4x8192x2048 1) : IVec S_ 1 :=
  let main_c_5 : IVec S_ 1 := constantI S_ 1 1#1
  let main_v17 : IVec S_ 1 := (fun x v => Host.reduce IntOp.andi x v reducesTo_S4x8192x2048_S_d0_1_2 h_S_) main_v16 main_c_5
  let main_v18 : IVec S_ 1 := andi main_v13 main_v17
  let main_v19 : FVec F S4x1x2048 .f32 := Host.absf main_arg4
  let main_cst_6 : FVec F S_ .f32 := constant S_ .f32 0x7F800000#32
  let main_v20 : FVec F S4x1x2048 .f32 := broadcastInDim S4x1x2048 ![] bcast_S_S4x1x2048 main_cst_6
  let main_v21 : IVec S4x1x2048 1 := cmpf .olt main_v19 main_v20
  let main_c_7 : IVec S_ 1 := constantI S_ 1 1#1
  let main_v22 : IVec S_ 1 := (fun x v => Host.reduce IntOp.andi x v reducesTo_S4x1x2048_S_d0_1_2 h_S_) main_v21 main_c_7
  let main_v23 : IVec S_ 1 := andi main_v18 main_v22
  main_v23

def fn {F : FTy → Type} [FloatOps F] (main_arg0 : FVec F S4x4096x2048 .f32) (main_arg1 : FVec F S4x2048x8192 .f32) (main_arg2 : FVec F S4x1x8192 .f32) (main_arg3 : FVec F S4x8192x2048 .f32) (main_arg4 : FVec F S4x1x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048x8192 .f32 := Host.absf main_arg1
  let main_cst_0 : FVec F S_ .f32 := constant S_ .f32 0x7F800000#32
  let main_v5 : FVec F S4x2048x8192 .f32 := broadcastInDim S4x2048x8192 ![] bcast_S_S4x2048x8192 main_cst_0
  let main_v6 : IVec S4x2048x8192 1 := cmpf .olt main_v4 main_v5
  let main_c_1 : IVec S_ 1 := constantI S_ 1 1#1
  let main_v7 : IVec S_ 1 := (fun x v => Host.reduce IntOp.andi x v reducesTo_S4x2048x8192_S_d0_1_2 h_S_) main_v6 main_c_1
  let main_v8 : IVec S_ 1 := andi main_v3 main_v7
  let main_v9 : FVec F S4x1x8192 .f32 := Host.absf main_arg2
  let main_cst_2 : FVec F S_ .f32 := constant S_ .f32 0x7F800000#32
  let main_v10 : FVec F S4x1x8192 .f32 := broadcastInDim S4x1x8192 ![] bcast_S_S4x1x8192 main_cst_2
  let main_v11 : IVec S4x1x8192 1 := cmpf .olt main_v9 main_v10
  let main_c_3 : IVec S_ 1 := constantI S_ 1 1#1
  let main_v12 : IVec S_ 1 := (fun x v => Host.reduce IntOp.andi x v reducesTo_S4x1x8192_S_d0_1_2 h_S_) main_v11 main_c_3
  let main_v13 : IVec S_ 1 := andi main_v8 main_v12
  let main_v14 : FVec F S4x8192x2048 .f32 := Host.absf main_arg3
  let main_cst_4 : FVec F S_ .f32 := constant S_ .f32 0x7F800000#32
  let main_v15 : FVec F S4x8192x2048 .f32 := broadcastInDim S4x8192x2048 ![] bcast_S_S4x8192x2048 main_cst_4
  let main_v16 : IVec S4x8192x2048 1 := cmpf .olt main_v14 main_v15
  fn_part1 (F := F) main_arg4 main_v13 main_v16
-- ==== Kernel.lean ====
abbrev S4x4096x2048 : Shape := ⟨3, ![4, 4096, 2048]⟩
abbrev S4x2048x8192 : Shape := ⟨3, ![4, 2048, 8192]⟩
abbrev S4x1x8192 : Shape := ⟨3, ![4, 1, 8192]⟩
abbrev S4x8192x2048 : Shape := ⟨3, ![4, 8192, 2048]⟩
abbrev S4x1x2048 : Shape := ⟨3, ![4, 1, 2048]⟩
abbrev S1x256x2048 : Shape := ⟨3, ![1, 256, 2048]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S256x2048 : Shape := ⟨2, ![256, 2048]⟩
abbrev S2048x512 : Shape := ⟨2, ![2048, 512]⟩
abbrev S256x512 : Shape := ⟨2, ![256, 512]⟩
abbrev S1x512 : Shape := ⟨2, ![1, 512]⟩
abbrev S512x2048 : Shape := ⟨2, ![512, 2048]⟩
abbrev S1x2048 : Shape := ⟨2, ![1, 2048]⟩

abbrev nBuf : Space → Nat
  | .hbm => 6
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x2048x8192, .f32⟩
  | .hbm, ⟨2, _⟩ => ⟨S4x1x8192, .f32⟩
  | .hbm, ⟨3, _⟩ => ⟨S4x8192x2048, .f32⟩
  | .hbm, ⟨4, _⟩ => ⟨S4x1x2048, .f32⟩
  | .hbm, ⟨5, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x256x2048, .f32⟩
  | .local _ .vmem, ⟨11, _⟩ => ⟨S1x256x2048, .f32⟩
  | .local _ .vmem, ⟨12, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 16], ![false, false, false]⟩

def k0_cond2 (i : grid0.Coords) : BitVec 1 :=
  let arg2 : BitVec 32 := BitVec.ofNat 32 (i 2).val
  let c15_i32 : BitVec 32 := 15#32
  let v26 : BitVec 1 := Scalar.cmpi .eq arg2 c15_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S256x512 : S1x512.Broadcasts S256x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  shapeCasts_S256x2048_S1x256x2048 : S256x2048.ShapeCasts S1x256x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x4096x2048.size a
  hwx0_0 : ∀ i : grid0.Coords, EltTy.bits .f32 = 32 ∨ (Rect.block (s := S4x4096x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S4x2048x8192.size a
  hwx0_1 : ∀ i : grid0.Coords, EltTy.bits .f32 = 32 ∨ (Rect.block (s := S4x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x8192.size a
  hwx0_2 : ∀ i : grid0.Coords, EltTy.bits .f32 = 32 ∨ (Rect.block (s := S4x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x8192x2048.size a
  hwx0_3 : ∀ i : grid0.Coords, EltTy.bits .f32 = 32 ∨ (Rect.block (s := S4x8192x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x2048.size a
  hwx0_4 : ∀ i : grid0.Coords, EltTy.bits .f32 = 32 ∨ (Rect.block (s := S4x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x4096x2048.size a
  hwx0_5 : ∀ i : grid0.Coords, EltTy.bits .f32 = 32 ∨ (Rect.block (s := S4x4096x2048) S1x256x2048.size (cc0_transform_5 i) (hinb0_5 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S4x2048x8192 : Shape := ⟨3, ![4, 2048, 8192]⟩
abbrev S4x1x8192 : Shape := ⟨3, ![4, 1, 8192]⟩
abbrev S4x8192x2048 : Shape := ⟨3, ![4, 8192, 2048]⟩
abbrev S4x1x2048 : Shape := ⟨3, ![4, 1, 2048]⟩
abbrev S4x4096x8192 : Shape := ⟨3, ![4, 4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x8192, .f32⟩
  | .hbm, ⟨2, _⟩ => ⟨S4x1x8192, .f32⟩
  | .hbm, ⟨3, _⟩ => ⟨S4x8192x2048, .f32⟩
  | .hbm, ⟨4, _⟩ => ⟨S4x1x2048, .f32⟩
  | .hbm, ⟨5, _⟩ => ⟨S4x4096x8192, .f32⟩
  | .hbm, ⟨6, _⟩ => ⟨S4x4096x8192, .f32⟩
  | .hbm, ⟨7, _⟩ => ⟨S4x4096x8192, .f32⟩
  | .hbm, ⟨8, _⟩ => ⟨S_, .f32⟩
  | .hbm, ⟨9, _⟩ => ⟨S4x4096x8192, .f32⟩
  | .hbm, ⟨10, _⟩ => ⟨S4x4096x8192, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S4x1x8192_S4x4096x8192_0_1_2 : S4x1x8192.BroadcastsInDim S4x4096x8192 (![0, 1, 2] : Fin 3 → Fin S4x4096x8192.rank)
  bcast_S_S4x4096x8192 : S_.BroadcastsInDim S4x4096x8192 (![] : Fin 0 → Fin S4x4096x8192.rank)
  bcast_S4x1x2048_S4x4096x2048_0_1_2 : S4x1x2048.BroadcastsInDim S4x4096x2048 (![0, 1, 2] : Fin 3 → Fin S4x4096x2048.rank)
  dot_S4x4096x2048_S4x2048x8192_S4x4096x8192_2_1_1_2_0_0_wf : DotDims.WF S4x4096x2048 S4x2048x8192 S4x4096x8192 [2] [1] [1] [2] [0] [0]
  dot_S4x4096x8192_S4x8192x2048_S4x4096x2048_2_1_1_2_0_0_wf : DotDims.WF S4x4096x8192 S4x8192x2048 S4x4096x2048 [2] [1] [1] [2] [0] [0]

variable [Facts₀]

def dot_S4x4096x2048_S4x2048x8192_S4x4096x8192_2_1_1_2_0_0 : DotDims S4x4096x2048 S4x2048x8192 S4x4096x8192 where
  lhsContracting := [2]
  rhsContracting := [1]
  lhsNonContracting := [1]
  rhsNonContracting := [2]
  lhsBatch := [0]
  rhsBatch := [0]
  wf := dot_S4x4096x2048_S4x2048x8192_S4x4096x8192_2_1_1_2_0_0_wf
def dot_S4x4096x8192_S4x8192x2048_S4x4096x2048_2_1_1_2_0_0 : DotDims S4x4096x8192 S4x8192x2048 S4x4096x2048 where
  lhsContracting := [2]
  rhsContracting := [1]
  lhsNonContracting := [1]
  rhsNonContracting := [2]
  lhsBatch := [0]
  rhsBatch := [0]
  wf := dot_S4x4096x8192_S4x8192x2048_S4x4096x2048_2_1_1_2_0_0_wf

class Facts : Prop extends Facts₀ where

variable [Facts]
-- ==== Proof.Pieces.lean ====
/-
  What one grid point leaves behind, as values of the body's three payloads.

  The body keeps a [256, 2048] accumulator in scratch memory. At the first hidden tile of a row tile it stores the
  zero block (`k0_pay1`), reads it back and stores `k0_pay2`: the accumulator plus this hidden tile's contribution.
  At every later hidden tile it stores `k0_pay2` over what the point before left. At the last hidden tile it also
  stores `k0_pay3` into the output block: the accumulator just written plus the second bias. Each store covers its
  whole buffer and each load reads a whole buffer, so what a buffer ends holding is the last payload stored into it,
  applied to the contents of the buffers it loaded.
-/
import proofs.«147781_j2121713845122_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First hidden tile: the accumulator ends at the zero block plus this tile's contribution. -/
theorem scratch_first (c : Dev nD) (i : grid0.Coords) (arg3 : Memref sig .tc .vmem S1x256x2048 .f32) (harg3 : arg3.IsWhole) (arg4 : Memref sig .tc .vmem S1x2048x512 .f32) (harg4 : arg4.IsWhole) (arg5 : Memref sig .tc .vmem S1x1x512 .f32) (harg5 : arg5.IsWhole) (arg6 : Memref sig .tc .vmem S1x512x2048 .f32) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : cond0_0 i) (hc1 : ¬cond0_1 i)
    (x0 : Vec F S1x256x2048 .f32) (x1 : Vec F S1x2048x512 .f32) (x2 : Vec F S1x1x512 .f32) (x3 : Vec F S1x512x2048 .f32) (x4 : Vec F S1x1x2048 .f32) :
    sout0_A_0 c i arg3 harg3 arg4 harg4 arg5 harg5 arg6 harg6 arg7 harg7 arg8 harg8 arg9 harg9 hc0 hc1 x0 x1 x2 x3 x4 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x2048) hz2, View.readCov_unit_zero (S := S256x2048) _ hz2]
  simp only [View.readAt_eq_ld, harg3.read_unread, harg4.read_unread, harg5.read_unread, harg6.read_unread, harg7.read_unread, harg9.read_unread, View.ld_unit_zero (S := S1x256x2048) hz3, View.ld_unit_zero (S := S1x2048x512) hz3, View.ld_unit_zero (S := S1x1x512) hz3, View.ld_unit_zero (S := S1x512x2048) hz3, View.ld_unit_zero (S := S1x1x2048) hz3, View.ld_unit_zero (S := S256x2048) hz2]

/-- A middle hidden tile: the accumulator ends at what the point before left plus this tile's contribution. -/
theorem scratch_middle (c : Dev nD) (i : grid0.Coords) (arg3 : Memref sig .tc .vmem S1x256x2048 .f32) (harg3 : arg3.IsWhole) (arg4 : Memref sig .tc .vmem S1x2048x512 .f32) (harg4 : arg4.IsWhole) (arg5 : Memref sig .tc .vmem S1x1x512 .f32) (harg5 : arg5.IsWhole) (arg6 : Memref sig .tc .vmem S1x512x2048 .f32) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : ¬cond0_0 i) (hc1 : ¬cond0_1 i)
    (x0 : Vec F S1x256x2048 .f32) (x1 : Vec F S1x2048x512 .f32) (x2 : Vec F S1x1x512 .f32) (x3 : Vec F S1x512x2048 .f32) (x4 : Vec F S1x1x2048 .f32) (xs0 : Vec F S256x2048 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S256x2048) hz2]
  simp only [View.readAt_eq_ld, harg3.read_unread, harg4.read_unread, harg5.read_unread, harg6.read_unread, harg7.read_unread, harg9.read_unread, View.ld_unit_zero (S := S1x256x2048) hz3, View.ld_unit_zero (S := S1x2048x512) hz3, View.ld_unit_zero (S := S1x1x512) hz3, View.ld_unit_zero (S := S1x512x2048) hz3, View.ld_unit_zero (S := S1x1x2048) hz3, View.ld_unit_zero (S := S256x2048) hz2]

/-- The last hidden tile: the accumulator likewise, -/
theorem scratch_last (c : Dev nD) (i : grid0.Coords) (arg3 : Memref sig .tc .vmem S1x256x2048 .f32) (harg3 : arg3.IsWhole) (arg4 : Memref sig .tc .vmem S1x2048x512 .f32) (harg4 : arg4.IsWhole) (arg5 : Memref sig .tc .vmem S1x1x512 .f32) (harg5 : arg5.IsWhole) (arg6 : Memref sig .tc .vmem S1x512x2048 .f32) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : ¬cond0_0 i) (hc1 : cond0_1 i)
    (x0 : Vec F S1x256x2048 .f32) (x1 : Vec F S1x2048x512 .f32) (x2 : Vec F S1x1x512 .f32) (x3 : Vec F S1x512x2048 .f32) (x4 : Vec F S1x1x2048 .f32) (xs0 : Vec F S256x2048 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S256x2048) hz2]
  simp only [View.readAt_eq_ld, harg3.read_unread, harg4.read_unread, harg5.read_unread, harg6.read_unread, harg7.read_unread, harg9.read_unread, View.ld_unit_zero (S := S1x256x2048) hz3, View.ld_unit_zero (S := S1x2048x512) hz3, View.ld_unit_zero (S := S1x1x512) hz3, View.ld_unit_zero (S := S1x512x2048) hz3, View.ld_unit_zero (S := S1x1x2048) hz3, View.ld_unit_zero (S := S256x2048) hz2]

/-- and the output block ends at that accumulator plus the second bias. -/
theorem block_last (c : Dev nD) (i : grid0.Coords) (arg3 : Memref sig .tc .vmem S1x256x2048 .f32) (harg3 : arg3.IsWhole) (arg4 : Memref sig .tc .vmem S1x2048x512 .f32) (harg4 : arg4.IsWhole) (arg5 : Memref sig .tc .vmem S1x1x512 .f32) (harg5 : arg5.IsWhole) (arg6 : Memref sig .tc .vmem S1x512x2048 .f32) (harg6 : arg6.IsWhole) (arg7 : Memref sig .tc .vmem S1x1x2048 .f32) (harg7 : arg7.IsWhole) (arg8 : Memref sig .tc .vmem S1x256x2048 .f32) (harg8 : arg8.IsWhole) (arg9 : Memref sig .tc .vmem S256x2048 .f32) (harg9 : arg9.IsWhole) (hc0 : ¬cond0_0 i) (hc1 : cond0_1 i)
    (x0 : Vec F S1x256x2048 .f32) (x1 : Vec F S1x2048x512 .f32) (x2 : Vec F S1x1x512 .f32) (x3 : Vec F S1x512x2048 .f32) (x4 : Vec F S1x1x2048 .f32) (xs0 : Vec F S256x2048 .f32) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1x256x2048) hz3, View.readCov_unit_zero (S := S256x2048) _ hz2]
  simp only [View.readAt_eq_ld, harg3.read_unread, harg4.read_unread, harg5.read_unread, harg6.read_unread, harg7.read_unread, harg9.read_unread, View.ld_unit_zero (S := S1x256x2048) hz3, View.ld_unit_zero (S := S1x2048x512) hz3, View.ld_unit_zero (S := S1x1x512) hz3, View.ld_unit_zero (S := S1x512x2048) hz3, View.ld_unit_zero (S := S1x1x2048) hz3, View.ld_unit_zero (S := S256x2048) hz2]

end Cert.KernelIdeal.Pieces

end
-- ==== Proof.Payload.lean ====
/-
  The body's three payloads read at an index, on the extended reals.

  With a change of float format the identity and a product into a zero accumulator the plain sum over its contracted
  axis, the accumulator's update at (p, q) is
    acc[p,q] + Σ_{k<512} max (Σ_{j<2048} x[0,p,j]·w1[0,j,k] + b1[0,0,k]) 0 · w2[0,k,q]
  over the point's blocks, the reset block is 0 everywhere, and the output block at (0, p, q) is acc[p,q] + b2[0,0,q].
  The layout steps on the way (a leading unit axis dropped or added, a [1, b] row repeated down the rows) each land on
  one entry of their operand.
-/
import proofs.«147781_j2121713845122_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Layout steps at an index given by coordinates -/

/-- A [1, a, b] block viewed as [a, b]: entry (p, q) is entry (0, p, q). -/
theorem dropUnit_ix {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) := by
  refine (shapeCast_dropUnit_apply ![a, b] v h (ix2 p q)).trans (congrArg v ?_)
  funext d
  match d with
  | ⟨0, _⟩ => rfl
  | ⟨1, _⟩ => rfl
  | ⟨2, _⟩ => rfl

/-- An [a, b] value stored as a [1, a, b] block: entry (z, p, q) is entry (p, q). -/
theorem addUnit_ix {α : Type} {a b : Nat} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) := by
  refine (shapeCast_addUnit_apply ![a, b] v h (ix3 z p q)).trans (congrArg v ?_)
  funext d
  match d with
  | ⟨0, _⟩ => rfl
  | ⟨1, _⟩ => rfl

/-- A [1, b] row repeated down a rows: entry (p, q) is the row's entry (0, q). -/
theorem rowBroadcast_ix {α : Type} {a b : Nat} (v : (⟨2, ![1, b]⟩ : Shape).Idx → α)
    (h : (⟨2, ![1, b]⟩ : Shape).Broadcasts ⟨2, ![a, b]⟩) (hb : b ≠ 1) (p : Fin a) (q : Fin b) :
    broadcastTo ⟨2, ![a, b]⟩ v h (ix2 p q) = v (ix2 0 q) := by
  refine broadcastTo_apply v h (ix2 p q) (ix2 0 q) fun d => ?_
  match d with
  | ⟨0, _⟩ => show (0 : Nat) = if (1 : Nat) = 1 then 0 else _; rw [if_pos rfl]
  | ⟨1, _⟩ => show q.val = if b = 1 then 0 else q.val; rw [if_neg hb]

/-! ## The two products -/

theorem lhs1_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs1_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs1_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs1_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The [256, 2048] × [2048, 512] product into a zero accumulator, at (p, k): the sum over the contracted axis. -/
theorem matmul1_apply {φ₁ φ₂ : FTy} (l : FVec Ideal S256x2048 φ₁) (r : FVec Ideal S2048x512 φ₂) (p : Fin 256) (k : Fin 512) :
    matmul dot_S256x2048_S2048x512_S256x512_1_0_0_1_n_n none l r (constant (F := Ideal) S256x512 .f32 0x00000000#32) (ix2 p k)
      = ∑ j : Fin 2048, l (ix2 p j) * r (ix2 j k) := by
  simp only [matmul]
  rw [Ideal.matmul_constant_zero_apply, ← Equiv.sum_comp (ValueIdx.contrEquiv1 dot_S256x2048_S2048x512_S256x512_1_0_0_1_n_n 2048 rfl rfl).symm]
  refine Finset.sum_congr rfl fun j _ => ?_
  have hk := ValueIdx.contrEquiv1_symm_val dot_S256x2048_S2048x512_S256x512_1_0_0_1_n_n 2048 rfl rfl j
  have el : dot_S256x2048_S2048x512_S256x512_1_0_0_1_n_n.lhsIdx (ix2 p k) ((ValueIdx.contrEquiv1 dot_S256x2048_S2048x512_S256x512_1_0_0_1_n_n 2048 rfl rfl).symm j) = ix2 p j := funext fun a => Fin.ext (by
    match a with
    | ⟨0, _⟩ => exact lhs1_0 _ _
    | ⟨1, _⟩ => exact (lhs1_1 _ _).trans hk)
  have er : dot_S256x2048_S2048x512_S256x512_1_0_0_1_n_n.rhsIdx (ix2 p k) ((ValueIdx.contrEquiv1 dot_S256x2048_S2048x512_S256x512_1_0_0_1_n_n 2048 rfl rfl).symm j) = ix2 j k := funext fun a => Fin.ext (by
    match a with
    | ⟨0, _⟩ => exact (rhs1_0 _ _).trans hk
    | ⟨1, _⟩ => exact rhs1_1 _ _)
  rw [el, er]

theorem lhs2_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs2_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhs2_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhs2_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The [256, 512] × [512, 2048] product into a zero accumulator, at (p, k): the sum over the contracted axis. -/
theorem matmul2_apply {φ₁ φ₂ : FTy} (l : FVec Ideal S256x512 φ₁) (r : FVec Ideal S512x2048 φ₂) (p : Fin 256) (k : Fin 2048) :
    matmul dot_S256x512_S512x2048_S256x2048_1_0_0_1_n_n none l r (constant (F := Ideal) S256x2048 .f32 0x00000000#32) (ix2 p k)
      = ∑ j : Fin 512, l (ix2 p j) * r (ix2 j k) := by
  simp only [matmul]
  rw [Ideal.matmul_constant_zero_apply, ← Equiv.sum_comp (ValueIdx.contrEquiv1 dot_S256x512_S512x2048_S256x2048_1_0_0_1_n_n 512 rfl rfl).symm]
  refine Finset.sum_congr rfl fun j _ => ?_
  have hk := ValueIdx.contrEquiv1_symm_val dot_S256x512_S512x2048_S256x2048_1_0_0_1_n_n 512 rfl rfl j
  have el : dot_S256x512_S512x2048_S256x2048_1_0_0_1_n_n.lhsIdx (ix2 p k) ((ValueIdx.contrEquiv1 dot_S256x512_S512x2048_S256x2048_1_0_0_1_n_n 512 rfl rfl).symm j) = ix2 p j := funext fun a => Fin.ext (by
    match a with
    | ⟨0, _⟩ => exact lhs2_0 _ _
    | ⟨1, _⟩ => exact (lhs2_1 _ _).trans hk)
  have er : dot_S256x512_S512x2048_S256x2048_1_0_0_1_n_n.rhsIdx (ix2 p k) ((ValueIdx.contrEquiv1 dot_S256x512_S512x2048_S256x2048_1_0_0_1_n_n 512 rfl rfl).symm j) = ix2 j k := funext fun a => Fin.ext (by
    match a with
    | ⟨0, _⟩ => exact (rhs2_0 _ _).trans hk
    | ⟨1, _⟩ => exact rhs2_1 _ _)
  rw [el, er]

/-! ## The payloads -/

/-- The reset block is zero everywhere. -/
theorem pay1_apply (i : S256x2048.Idx) : k0_pay1 (F := Ideal) i = 0 := by
  unfold k0_pay1
  rw [shapeCast_self]
  exact Ideal.ofBits_zero_f32

/-- The accumulator's update at (p, q). -/
theorem pay2_apply (x0 : Vec Ideal S1x256x2048 .f32) (x1 : Vec Ideal S1x2048x512 .f32) (x2 : Vec Ideal S1x1x512 .f32)
    (x3 : Vec Ideal S1x512x2048 .f32) (acc : Vec Ideal S256x2048 .f32) (p : Fin 256) (q : Fin 2048) :
    k0_pay2 (F := Ideal) x0 x1 x2 x3 acc (ix2 p q)
      = acc (ix2 p q) + ∑ k : Fin 512,
          max ((∑ j : Fin 2048, x0 (ix3 0 p j) * x1 (ix3 0 j k)) + x2 (ix3 0 0 k)) 0 * x3 (ix3 0 k q) := by
  unfold k0_pay2
  rw [shapeCast_self, addf_apply, matmul2_apply]
  refine congrArg (acc (ix2 p q) + ·) (Finset.sum_congr rfl fun k _ => ?_)
  simp only [truncf_apply, maximumf_apply, addf_apply, matmul1_apply, broadcast_apply, dropUnit_ix,
    rowBroadcast_ix _ broadcasts_S1x512_S256x512 (by decide)]
  rw [show (FloatOps.ofBits (F := Ideal) .f32 0x00000000#32 : EReal) = 0 from Ideal.ofBits_zero_f32]

/-- The output block at (z, p, q): the accumulator's entry plus the second bias's. -/
theorem pay3_apply (acc : Vec Ideal S256x2048 .f32) (x4 : Vec Ideal S1x1x2048 .f32) (z : Fin 1) (p : Fin 256) (q : Fin 2048) :
    k0_pay3 (F := Ideal) acc x4 (ix3 z p q) = acc (ix2 p q) + x4 (ix3 0 0 q) := by
  unfold k0_pay3
  rw [addUnit_ix, addf_apply, rowBroadcast_ix _ broadcasts_S1x2048_S256x2048 (by decide), dropUnit_ix]

end Cert.KernelIdeal.Payload

end
-- ==== Proof.Spec.lean ====
/-
  The mathematics of the expert feed-forward layer, stated once over the argument arrays and shared by both sides.

  For expert `e`, row `t` and output column `d`:
    hid e t k   = max (Σ_j x[e,t,j] · w1[e,j,k] + b1[e,0,k]) 0                 (k < 8192)
    ffn (e,t,d) = Σ_k hid e t k · w2[e,k,d] + b2[e,0,d].
  The kernel walks the hidden axis in 16 tiles of 512 columns and adds one tile's contribution `part` per grid
  point into an accumulator that starts at zero; the reference contracts the whole hidden axis at once. The two
  agree because a sum over `Fin 8192` is the sum over the 16 tiles of the sums inside each tile (`sum_tiles`):
  only commutativity and associativity of addition on the extended reals are used, so no finiteness is needed.
-/
import Idealize.ShloMosaic.PureOps.Ideal
import Idealize.ShloMosaic.Lib.ValueIdx

noncomputable section

open scoped BigOperators

namespace Cert.Ffn

open Idealize.ShloMosaic Idealize.ShloMosaic.ValueIdx

/-- The argument arrays' shapes. -/
abbrev SX : Shape := ⟨3, ![4, 4096, 2048]⟩
abbrev SW1 : Shape := ⟨3, ![4, 2048, 8192]⟩
abbrev SB1 : Shape := ⟨3, ![4, 1, 8192]⟩
abbrev SW2 : Shape := ⟨3, ![4, 8192, 2048]⟩
abbrev SB2 : Shape := ⟨3, ![4, 1, 2048]⟩

/-- Column `r` of hidden tile `s` as a column of the whole hidden axis. -/
abbrev hcol (s : Fin 16) (r : Fin 512) : Fin 8192 := ⟨512 * s.val + r.val, by have := s.isLt; have := r.isLt; omega⟩

/-- Row `p` of row tile `u` as a row of the whole token axis. -/
abbrev trow (u : Fin 16) (p : Fin 256) : Fin 4096 := ⟨256 * u.val + p.val, by have := u.isLt; have := p.isLt; omega⟩

/-- The hidden activation: the first product plus its bias, clamped below at zero. -/
def hid (x : SX.Idx → EReal) (w1 : SW1.Idx → EReal) (b1 : SB1.Idx → EReal) (e : Fin 4) (t : Fin 4096) (k : Fin 8192) : EReal :=
  max ((∑ j : Fin 2048, x (ix3 e t j) * w1 (ix3 e j k)) + b1 (ix3 e 0 k)) 0

/-- The layer's result at expert `e`, row `t`, column `d`. -/
def ffnAt (x : SX.Idx → EReal) (w1 : SW1.Idx → EReal) (b1 : SB1.Idx → EReal) (w2 : SW2.Idx → EReal) (b2 : SB2.Idx → EReal)
    (e : Fin 4) (t : Fin 4096) (d : Fin 2048) : EReal :=
  (∑ k : Fin 8192, hid x w1 b1 e t k * w2 (ix3 e k d)) + b2 (ix3 e 0 d)

/-- The layer's result as an array. -/
def ffn (x : SX.Idx → EReal) (w1 : SW1.Idx → EReal) (b1 : SB1.Idx → EReal) (w2 : SW2.Idx → EReal) (b2 : SB2.Idx → EReal) :
    SX.Idx → EReal := fun i => ffnAt x w1 b1 w2 b2 (i 0) (i 1) (i 2)

theorem ffn_ix3 (x : SX.Idx → EReal) (w1 : SW1.Idx → EReal) (b1 : SB1.Idx → EReal) (w2 : SW2.Idx → EReal) (b2 : SB2.Idx → EReal)
    (e : Fin 4) (t : Fin 4096) (d : Fin 2048) : ffn x w1 b1 w2 b2 (ix3 e t d) = ffnAt x w1 b1 w2 b2 e t d := rfl

/-- What hidden tile `s` contributes to entry `(e, t, d)` of the second product. -/
def part (x : SX.Idx → EReal) (w1 : SW1.Idx → EReal) (b1 : SB1.Idx → EReal) (w2 : SW2.Idx → EReal)
    (e : Fin 4) (t : Fin 4096) (d : Fin 2048) (s : Fin 16) : EReal :=
  ∑ r : Fin 512, hid x w1 b1 e t (hcol s r) * w2 (ix3 e (hcol s r) d)

/-- A sum over the hidden axis is the sum over its 16 tiles of the sums inside each tile. -/
theorem sum_tiles {M : Type*} [AddCommMonoid M] (f : Fin 8192 → M) :
    ∑ k : Fin 8192, f k = ∑ s : Fin 16, ∑ r : Fin 512, f (hcol s r) := by
  rw [← Fintype.sum_prod_type' (f := fun s r => f (hcol s r))]
  refine (Equiv.sum_comp (finProdFinEquiv (m := 16) (n := 512)) f).symm.trans ?_
  refine Finset.sum_congr rfl fun a _ => congrArg f (Fin.ext ?_)
  show a.2.val + 512 * a.1.val = 512 * a.1.val + a.2.val
  omega

/-- The second product is the sum of the 16 tiles' contributions. -/
theorem sum_parts (x : SX.Idx → EReal) (w1 : SW1.Idx → EReal) (b1 : SB1.Idx → EReal) (w2 : SW2.Idx → EReal)
    (e : Fin 4) (t : Fin 4096) (d : Fin 2048) :
    ∑ k : Fin 8192, hid x w1 b1 e t k * w2 (ix3 e k d) = ∑ s : Fin 16, part x w1 b1 w2 e t d s :=
  sum_tiles fun k => hid x w1 b1 e t k * w2 (ix3 e k d)

end Cert.Ffn

end
-- ==== Proof.Blocks.lean ====
/-
  Which entries of the argument arrays a grid point's blocks hold.

  The grid is 4 experts × 16 row tiles × 16 hidden tiles, walked with the hidden tile fastest: point n is expert
  (n / 256) % 4, row tile (n / 16) % 16, hidden tile n % 16. At that point the blocks are
    x  [1, 256, 2048]: rows 256·u … of expert e;      w1 [1, 2048, 512]: columns 512·s … of expert e;
    b1 [1, 1, 512]:    columns 512·s … of expert e;   w2 [1, 512, 2048]: rows 512·s … of expert e;
    b2 [1, 1, 2048]:   expert e;                       out [1, 256, 2048]: rows 256·u … of expert e.
  A block's coordinate on an axis is always (block index) × (block size) + (coordinate inside the block); the block
  indices are decided once over the 1024 grid points.
-/
import proofs.«147781_j2121713845122_1_alg».proof.Proof.Gen.KernelIdeal.Frame
import proofs.«147781_j2121713845122_1_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Cert.Ffn

variable (m : (ℓ : Loc nD τ sig) → Buf (Elt Ideal) ℓ)

/-! ## The argument arrays and a grid point's coordinates -/

abbrev X (c : Dev nD) : SX.Idx → EReal := m ((c : Thread nD τ).loc main_arg0)
abbrev W1 (c : Dev nD) : SW1.Idx → EReal := m ((c : Thread nD τ).loc main_arg1)
abbrev B1 (c : Dev nD) : SB1.Idx → EReal := m ((c : Thread nD τ).loc main_arg2)
abbrev W2 (c : Dev nD) : SW2.Idx → EReal := m ((c : Thread nD τ).loc main_arg3)
abbrev B2 (c : Dev nD) : SB2.Idx → EReal := m ((c : Thread nD τ).loc main_arg4)

/-- Point n's expert, row tile and hidden tile. -/
abbrev eN (n : ℕ) : Fin 4 := ⟨(n / 256) % 4, Nat.mod_lt _ (by decide)⟩
abbrev uN (n : ℕ) : Fin 16 := ⟨(n / 16) % 16, Nat.mod_lt _ (by decide)⟩
abbrev sN (n : ℕ) : Fin 16 := ⟨n % 16, Nat.mod_lt _ (by decide)⟩

/-! ## The block indices, decided over the grid -/

theorem idx_x : ∀ t : Fin cfg0.N, win0_0.index t (0 : Fin 3) = (t.val / 256) % 4
    ∧ win0_0.index t (1 : Fin 3) = (t.val / 16) % 16 ∧ win0_0.index t (2 : Fin 3) = 0 :=
  (by decide +kernel : ∀ t : Fin grid0.N, _)
theorem idx_w1 : ∀ t : Fin cfg0.N, win0_1.index t (0 : Fin 3) = (t.val / 256) % 4
    ∧ win0_1.index t (1 : Fin 3) = 0 ∧ win0_1.index t (2 : Fin 3) = t.val % 16 :=
  (by decide +kernel : ∀ t : Fin grid0.N, _)
theorem idx_b1 : ∀ t : Fin cfg0.N, win0_2.index t (0 : Fin 3) = (t.val / 256) % 4
    ∧ win0_2.index t (1 : Fin 3) = 0 ∧ win0_2.index t (2 : Fin 3) = t.val % 16 :=
  (by decide +kernel : ∀ t : Fin grid0.N, _)
theorem idx_w2 : ∀ t : Fin cfg0.N, win0_3.index t (0 : Fin 3) = (t.val / 256) % 4
    ∧ win0_3.index t (1 : Fin 3) = t.val % 16 ∧ win0_3.index t (2 : Fin 3) = 0 :=
  (by decide +kernel : ∀ t : Fin grid0.N, _)
theorem idx_b2 : ∀ t : Fin cfg0.N, win0_4.index t (0 : Fin 3) = (t.val / 256) % 4
    ∧ win0_4.index t (1 : Fin 3) = 0 ∧ win0_4.index t (2 : Fin 3) = 0 :=
  (by decide +kernel : ∀ t : Fin grid0.N, _)
theorem idx_out : ∀ t : Fin cfg0.N, win0_5.index t (0 : Fin 3) = (t.val / 256) % 4
    ∧ win0_5.index t (1 : Fin 3) = (t.val / 16) % 16 ∧ win0_5.index t (2 : Fin 3) = 0 :=
  (by decide +kernel : ∀ t : Fin grid0.N, _)

/-! ## The input blocks, at their literal types, read at an index -/

abbrev xblk (c : Dev nD) (t : Fin cfg0.N) : Vec Ideal S1x256x2048 .f32 := iblk m c 0 t
abbrev w1blk (c : Dev nD) (t : Fin cfg0.N) : Vec Ideal S1x2048x512 .f32 := iblk m c 1 t
abbrev b1blk (c : Dev nD) (t : Fin cfg0.N) : Vec Ideal S1x1x512 .f32 := iblk m c 2 t
abbrev w2blk (c : Dev nD) (t : Fin cfg0.N) : Vec Ideal S1x512x2048 .f32 := iblk m c 3 t
abbrev b2blk (c : Dev nD) (t : Fin cfg0.N) : Vec Ideal S1x1x2048 .f32 := iblk m c 4 t

theorem xblk_apply (c : Dev nD) (t : Fin cfg0.N) (z : Fin 1) (p : Fin 256) (j : Fin 2048) :
    xblk m c t (ix3 z p j) = X m c (ix3 (eN t.val) (trow (uN t.val) p) j) := by
  obtain ⟨e0, e1, e2⟩ := idx_x t
  show V m c main_arg0 (((cfg0.win 0).blk t).view.emb (ix3 z p j)) = V m c main_arg0 (ix3 (eN t.val) (trow (uN t.val) p) j)
  refine congrArg (V m c main_arg0) (funext fun a => Fin.ext ?_)
  match a with
  | ⟨0, _⟩ => show win0_0.index t (0 : Fin 3) * 1 + 1 * z.val = (t.val / 256) % 4; have := z.isLt; omega
  | ⟨1, _⟩ => show win0_0.index t (1 : Fin 3) * 256 + 1 * p.val = 256 * ((t.val / 16) % 16) + p.val; omega
  | ⟨2, _⟩ => show win0_0.index t (2 : Fin 3) * 2048 + 1 * j.val = j.val; omega

theorem w1blk_apply (c : Dev nD) (t : Fin cfg0.N) (z : Fin 1) (j : Fin 2048) (k : Fin 512) :
    w1blk m c t (ix3 z j k) = W1 m c (ix3 (eN t.val) j (hcol (sN t.val) k)) := by
  obtain ⟨e0, e1, e2⟩ := idx_w1 t
  show V m c main_arg1 (((cfg0.win 1).blk t).view.emb (ix3 z j k)) = V m c main_arg1 (ix3 (eN t.val) j (hcol (sN t.val) k))
  refine congrArg (V m c main_arg1) (funext fun a => Fin.ext ?_)
  match a with
  | ⟨0, _⟩ => show win0_1.index t (0 : Fin 3) * 1 + 1 * z.val = (t.val / 256) % 4; have := z.isLt; omega
  | ⟨1, _⟩ => show win0_1.index t (1 : Fin 3) * 2048 + 1 * j.val = j.val; omega
  | ⟨2, _⟩ => show win0_1.index t (2 : Fin 3) * 512 + 1 * k.val = 512 * (t.val % 16) + k.val; omega

theorem b1blk_apply (c : Dev nD) (t : Fin cfg0.N) (z z' : Fin 1) (k : Fin 512) :
    b1blk m c t (ix3 z z' k) = B1 m c (ix3 (eN t.val) 0 (hcol (sN t.val) k)) := by
  obtain ⟨e0, e1, e2⟩ := idx_b1 t
  show V m c main_arg2 (((cfg0.win 2).blk t).view.emb (ix3 z z' k)) = V m c main_arg2 (ix3 (eN t.val) 0 (hcol (sN t.val) k))
  refine congrArg (V m c main_arg2) (funext fun a => Fin.ext ?_)
  match a with
  | ⟨0, _⟩ => show win0_2.index t (0 : Fin 3) * 1 + 1 * z.val = (t.val / 256) % 4; have := z.isLt; omega
  | ⟨1, _⟩ => show win0_2.index t (1 : Fin 3) * 1 + 1 * z'.val = 0; have := z'.isLt; omega
  | ⟨2, _⟩ => show win0_2.index t (2 : Fin 3) * 512 + 1 * k.val = 512 * (t.val % 16) + k.val; omega

theorem w2blk_apply (c : Dev nD) (t : Fin cfg0.N) (z : Fin 1) (k : Fin 512) (q : Fin 2048) :
    w2blk m c t (ix3 z k q) = W2 m c (ix3 (eN t.val) (hcol (sN t.val) k) q) := by
  obtain ⟨e0, e1, e2⟩ := idx_w2 t
  show V m c main_arg3 (((cfg0.win 3).blk t).view.emb (ix3 z k q)) = V m c main_arg3 (ix3 (eN t.val) (hcol (sN t.val) k) q)
  refine congrArg (V m c main_arg3) (funext fun a => Fin.ext ?_)
  match a with
  | ⟨0, _⟩ => show win0_3.index t (0 : Fin 3) * 1 + 1 * z.val = (t.val / 256) % 4; have := z.isLt; omega
  | ⟨1, _⟩ => show win0_3.index t (1 : Fin 3) * 512 + 1 * k.val = 512 * (t.val % 16) + k.val; omega
  | ⟨2, _⟩ => show win0_3.index t (2 : Fin 3) * 2048 + 1 * q.val = q.val; omega

theorem b2blk_apply (c : Dev nD) (t : Fin cfg0.N) (z z' : Fin 1) (q : Fin 2048) :
    b2blk m c t (ix3 z z' q) = B2 m c (ix3 (eN t.val) 0 q) := by
  obtain ⟨e0, e1, e2⟩ := idx_b2 t
  show V m c main_arg4 (((cfg0.win 4).blk t).view.emb (ix3 z z' q)) = V m c main_arg4 (ix3 (eN t.val) 0 q)
  refine congrArg (V m c main_arg4) (funext fun a => Fin.ext ?_)
  match a with
  | ⟨0, _⟩ => show win0_4.index t (0 : Fin 3) * 1 + 1 * z.val = (t.val / 256) % 4; have := z.isLt; omega
  | ⟨1, _⟩ => show win0_4.index t (1 : Fin 3) * 1 + 1 * z'.val = 0; have := z'.isLt; omega
  | ⟨2, _⟩ => show win0_4.index t (2 : Fin 3) * 2048 + 1 * q.val = q.val; omega

/-- Where entry (z, p, q) of the output block of point `t` lies in the result array. -/
theorem out_emb (t : Fin cfg0.N) (z : Fin 1) (p : Fin 256) (q : Fin 2048) :
    ((cfg0.win 5).blk t).view.emb (ix3 z p q) = ix3 (eN t.val) (trow (uN t.val) p) q := by
  obtain ⟨e0, e1, e2⟩ := idx_out t
  refine funext fun a => Fin.ext ?_
  match a with
  | ⟨0, _⟩ => show win0_5.index t (0 : Fin 3) * 1 + 1 * z.val = (t.val / 256) % 4; have := z.isLt; omega
  | ⟨1, _⟩ => show win0_5.index t (1 : Fin 3) * 256 + 1 * p.val = 256 * ((t.val / 16) % 16) + p.val; omega
  | ⟨2, _⟩ => show win0_5.index t (2 : Fin 3) * 2048 + 1 * q.val = q.val; omega

end Cert.KernelIdeal.Blocks

end
-- ==== Proof.Accum.lean ====
/-
  The accumulator after each grid point.

  Over one row tile the sixteen hidden tiles are consecutive grid points 16·r, …, 16·r + 15. At the first the
  accumulator is reset to zero and the tile's contribution added; at each later one the tile's contribution is added
  to what the point before left. So after point n the accumulator's entry (p, q) is zero plus the contributions of
  the hidden tiles 0 … n % 16 of that row tile: the run's fold, unrolled into a sum over the points of the run.
-/
import proofs.«147781_j2121713845122_1_alg».proof.Proof.Gen.KernelIdeal.Value
import proofs.«147781_j2121713845122_1_alg».proof.Proof.Pieces
import proofs.«147781_j2121713845122_1_alg».proof.Proof.Payload
import proofs.«147781_j2121713845122_1_alg».proof.Proof.Blocks

noncomputable section

open scoped BigOperators
open Idealize.ShloMosaic Idealize.ShloMosaic.TcCoe Idealize.SL.Sem

namespace Cert.KernelIdeal.Accum

open Cert.KernelIdeal Cert.KernelIdeal.Gen Idealize.ShloMosaic.ValueIdx Cert.Ffn Cert.KernelIdeal.Blocks

variable (m : (ℓ : Loc nD τ sig) → Buf (Elt Ideal) ℓ)

/-- What grid point n adds to the accumulator's entry (p, q): its hidden tile's contribution to row 256·u + p,
    column q of expert e. -/
def addendAt (c : Dev nD) (n : ℕ) (p : Fin 256) (q : Fin 2048) : EReal :=
  part (X m c) (W1 m c) (B1 m c) (W2 m c) (eN n) (trow (uN n) p) q (sN n)

/-- The same as a block. -/
def addend (c : Dev nD) (n : ℕ) : S256x2048.Idx → EReal := fun i => addendAt m c n (i 0) (i 1)

/-- One point's update of the accumulator, over the point's blocks, at (p, q). -/
theorem step_apply (c : Dev nD) (t : Fin cfg0.N) (acc : Vec Ideal S256x2048 .f32) (p : Fin 256) (q : Fin 2048) :
    k0_pay2 (F := Ideal) (xblk m c t) (w1blk m c t) (b1blk m c t) (w2blk m c t) acc (ix2 p q)
      = acc (ix2 p q) + addendAt m c t.val p q := by
  rw [Payload.pay2_apply]
  unfold addendAt part hid
  refine congrArg (acc (ix2 p q) + ·) (Finset.sum_congr rfl fun k _ => ?_)
  simp only [xblk_apply, w1blk_apply, b1blk_apply, w2blk_apply]

/-- At the first point of a run the accumulator is the update of the zero block. -/
theorem scAt_first (c : Dev nD) (n : ℕ) (hb : n < cfg0.N) (h0 : n % 16 = 0) (acc : Vec Ideal S256x2048 .f32) :
    Value.scAt0_0 m c n hb acc
      = k0_pay2 (xblk m c (⟨n, hb⟩ : Fin cfg0.N)) (w1blk m c (⟨n, hb⟩ : Fin cfg0.N)) (b1blk m c (⟨n, hb⟩ : Fin cfg0.N)) (w2blk m c (⟨n, hb⟩ : Fin cfg0.N)) (k0_pay1 (F := Ideal)) := by
  have h1 : ¬n % 16 = 15 := by omega
  unfold Value.scAt0_0
  rw [dif_pos h0, dif_neg h1]
  exact Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- At every later point it is the update of what the point before left. -/
theorem scAt_later (c : Dev nD) (n : ℕ) (hb : n < cfg0.N) (h0 : ¬n % 16 = 0) (acc : Vec Ideal S256x2048 .f32) :
    Value.scAt0_0 m c n hb acc
      = k0_pay2 (xblk m c (⟨n, hb⟩ : Fin cfg0.N)) (w1blk m c (⟨n, hb⟩ : Fin cfg0.N)) (b1blk m c (⟨n, hb⟩ : Fin cfg0.N)) (w2blk m c (⟨n, hb⟩ : Fin cfg0.N)) acc := by
  unfold Value.scAt0_0
  rw [dif_neg h0]
  by_cases h1 : n % 16 = 15
  · rw [dif_pos h1]
    exact Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- The accumulator after point n: zero plus the contributions of the run's points up to n. -/
theorem scratch_after (c : Dev nD) (n : ℕ) (hn : n < cfg0.N) (i : S256x2048.Idx) :
    (outsAt0 m c n hn).2 i = 0 + ∑ s ∈ Finset.range (n % 16 + 1), addend m c (16 * (n / 16) + s) i := by
  refine (congrFun (Value.soutsAt0_0_eq m c ⟨n, hn⟩) i).trans ?_
  refine Pipeline.accAt_add_apply (N := cfg0.N) _ _ (fun _ => (0 : EReal)) (addend m c) (16 * (n / 16)) 15 ?_ ?_
    (n % 16) (by omega) _ i
  · intro h j
    obtain ⟨p, q, rfl⟩ : ∃ (p : Fin 256) (q : Fin 2048), j = ix2 p q := ⟨j 0, j 1, eq_ix2 j⟩
    rw [scAt_first m c _ h (by omega) _, step_apply m c ⟨16 * (n / 16), h⟩ _ p q, Payload.pay1_apply]
    rfl
  · intro k h acc j hlo hhi
    obtain ⟨p, q, rfl⟩ : ∃ (p : Fin 256) (q : Fin 2048), j = ix2 p q := ⟨j 0, j 1, eq_ix2 j⟩
    rw [scAt_later m c k h (by omega) acc, step_apply m c ⟨k, h⟩ acc p q]
    rfl

end Cert.KernelIdeal.Accum

end
-- ==== Proof.KernelValue.lean ====
/-
  The kernel's result array is the layer's function of the argument arrays.

  The output block of a row tile is written back once, at the tile's last hidden tile (grid points ≡ 15 mod 16). There
  the body has just added the last contribution to the accumulator and stores the accumulator plus the second bias:
  entry (p, q) of the block is  (0 + Σ_{s<16} contribution of hidden tile s) + b2[e,0,q],  which is
  Σ_{k<8192} hid e t k · w2[e,k,q] + b2[e,0,q]  with t = 256·u + p, because the hidden axis is the disjoint union of its
  sixteen tiles. The 64 written blocks tile the [4, 4096, 2048] result, so the array ends holding `ffn` everywhere.
-/
import proofs.«147781_j2121713845122_1_alg».proof.Proof.Accum

noncomputable section

open scoped BigOperators
open Idealize.ShloMosaic Idealize.ShloMosaic.TcCoe Idealize.SL.Sem
open Idealize.ShloMosaic.Pipeline (Dat)

namespace Cert.KernelIdeal.FfnValue

open Cert.KernelIdeal Cert.KernelIdeal.Gen Idealize.ShloMosaic.ValueIdx Cert.Ffn Cert.KernelIdeal.Blocks Cert.KernelIdeal.Accum

variable (m : (ℓ : Loc nD τ sig) → Buf (Elt Ideal) ℓ) (ρ : Dev nD → PrngReg)

/-- The layer's function of the launch contents of the five arguments. -/
abbrev result (c : Dev nD) : SX.Idx → EReal := ffn (X m c) (W1 m c) (B1 m c) (W2 m c) (B2 m c)

/-- The contributions of a whole run of sixteen points are the sixteen hidden tiles' parts of one entry. -/
theorem run_sum (c : Dev nD) (n : ℕ) (h15 : n % 16 = 15) (p : Fin 256) (q : Fin 2048) :
    ∑ s ∈ Finset.range 16, addend m c (16 * (n / 16) + s) (ix2 p q)
      = ∑ s : Fin 16, part (X m c) (W1 m c) (B1 m c) (W2 m c) (eN n) (trow (uN n) p) q s := by
  rw [Finset.sum_range]
  refine Finset.sum_congr rfl fun s _ => ?_
  have hs := s.isLt
  show part (X m c) (W1 m c) (B1 m c) (W2 m c) (eN (16 * (n / 16) + s.val)) (trow (uN (16 * (n / 16) + s.val)) p) q
      (sN (16 * (n / 16) + s.val)) = _
  have he : eN (16 * (n / 16) + s.val) = eN n := Fin.ext (by show (16 * (n / 16) + s.val) / 256 % 4 = n / 256 % 4; omega)
  have hu : uN (16 * (n / 16) + s.val) = uN n := Fin.ext (by show (16 * (n / 16) + s.val) / 16 % 16 = n / 16 % 16; omega)
  have hs' : sN (16 * (n / 16) + s.val) = s := Fin.ext (by show (16 * (n / 16) + s.val) % 16 = s.val; omega)
  rw [he, hu, hs']

/-- What a writing point writes back is its block of `result`. -/
theorem flushed_eq (c : Dev nD) (t : Fin cfg0.N) (hf : (cfg0.win 5).flush t = true) :
    (dats m 0 c).flushed 5 t = ((cfg0.win 5).blk t).view.read (Elt Ideal) (result m c) := by
  have hN : cfg0.N = 1024 := N_0
  have h15 : t.val % 16 = 15 := (flush0_5 t).mp hf
  have h0 : ¬t.val % 16 = 0 := by omega
  have hlt := t.isLt
  rw [Value.flushed5_C m c t h0 h15,
    Pieces.block_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h15) (iblk m c 0 t) (iblk m c 1 t) (iblk m c 2 t) (iblk m c 3 t) (iblk m c 4 t) (outsAt0 m c (t.val - 1) (Nat.lt_of_le_of_lt (Nat.sub_le _ _) t.isLt)).2]
  funext y
  obtain ⟨z, p, q, rfl⟩ : ∃ (z : Fin 1) (p : Fin 256) (q : Fin 2048), y = ix3 z p q := ⟨y 0, y 1, y 2, eq_ix3 y⟩
  show k0_pay3 (F := Ideal) (k0_pay2 (xblk m c t) (w1blk m c t) (b1blk m c t) (w2blk m c t)
      (outsAt0 m c (t.val - 1) (Nat.lt_of_le_of_lt (Nat.sub_le _ _) t.isLt)).2) (b2blk m c t) (ix3 z p q)
    = result m c (((cfg0.win 5).blk t).view.emb (ix3 z p q))
  rw [Payload.pay3_apply, step_apply, scratch_after, b2blk_apply, out_emb]
  show _ = ffnAt (X m c) (W1 m c) (B1 m c) (W2 m c) (B2 m c) (eN t.val) (trow (uN t.val) p) q
  unfold ffnAt
  rw [sum_parts, ← run_sum m c t.val h15 p q]
  have e1 : (t.val - 1) % 16 + 1 = 15 := by omega
  have e2 : 16 * ((t.val - 1) / 16) = 16 * (t.val / 16) := by omega
  have e3 : addendAt m c t.val p q = addend m c (16 * (t.val / 16) + 15) (ix2 p q) := by
    show addendAt m c t.val p q = addendAt m c (16 * (t.val / 16) + 15) p q
    rw [show 16 * (t.val / 16) + 15 = t.val by omega]
  rw [e1, e2, e3, Finset.sum_range_succ _ 15, zero_add]

/-- An index of the result array lies in point `t`'s block iff each coordinate is in the block's range on its axis. -/
theorem mem_blk (t : Fin cfg0.N) (i : S4x4096x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0).slice (win0_5.rect t)).set ↔ _
  rw [View.set_slice_whole, Rect.mem_set_unit]
  exact Iff.rfl

/-- Every index of the result lies in the block some writing point writes: row r of expert e in the block of row tile
    r / 256, written at that tile's last hidden tile. -/
theorem cover (i : S4x4096x2048.Idx) :
    ∃ t : Fin cfg0.N, (cfg0.win 5).flush t = true ∧ i ∈ ((cfg0.win 5).blk t).view.set := by
  have hN : cfg0.N = 1024 := N_0
  have h0 : (i 0).val < 4 := (i 0).isLt
  have h1 : (i 1).val < 4096 := (i 1).isLt
  have h2 : (i 2).val < 2048 := (i 2).isLt
  obtain ⟨tv, htv⟩ : ∃ tv : ℕ, tv = 256 * (i 0).val + 16 * ((i 1).val / 256) + 15 := ⟨_, rfl⟩
  have hlt : tv < cfg0.N := by rw [hN]; omega
  refine ⟨⟨tv, hlt⟩, (flush0_5 ⟨tv, hlt⟩).mpr (by show tv % 16 = 15; omega), ?_⟩
  rw [mem_blk]
  obtain ⟨e0, e1, e2⟩ := idx_out ⟨tv, hlt⟩
  have e0' : win0_5.index ⟨tv, hlt⟩ (0 : Fin 3) = (tv / 256) % 4 := e0
  have e1' : win0_5.index ⟨tv, hlt⟩ (1 : Fin 3) = (tv / 16) % 16 := e1
  intro a
  match a with
  | ⟨0, _⟩ =>
    show win0_5.index ⟨tv, hlt⟩ (0 : Fin 3) * 1 ≤ (i 0).val ∧ (i 0).val < win0_5.index ⟨tv, hlt⟩ (0 : Fin 3) * 1 + 1
    rw [e0']; omega
  | ⟨1, _⟩ =>
    show win0_5.index ⟨tv, hlt⟩ (1 : Fin 3) * 256 ≤ (i 1).val ∧ (i 1).val < win0_5.index ⟨tv, hlt⟩ (1 : Fin 3) * 256 + 256
    rw [e1']; omega
  | ⟨2, _⟩ =>
    show win0_5.index ⟨tv, hlt⟩ (2 : Fin 3) * 2048 ≤ (i 2).val ∧ (i 2).val < win0_5.index ⟨tv, hlt⟩ (2 : Fin 3) * 2048 + 2048
    rw [e2]; omega

/-- The result array after the run. -/
theorem final (c : Dev nD) : (dats m 0 c).arrAt 5 cfg0.N = result m c :=
  (dats m 0 c).arrAt_eq_of_cover 5 (result m c) (flushed_eq m c) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.FfnValue

end
-- ==== Proof.RefSpec.lean ====
/-
  The reference's result is the layer's function `Cert.Ffn.ffn` of the argument arrays.

  The reference computes, over the whole arrays, a batched product contracting the model axis, adds the first bias
  broadcast along the rows, clamps at zero, contracts the hidden axis against the second weights and adds the second
  bias. Read at an index (e, t, d) every layout step lands on one entry of its operand, each product is a plain sum
  over its one contracted axis, and the clamp's constant is the extended real 0, so the entry is
  Σ_k max (Σ_j x[e,t,j]·w1[e,j,k] + b1[e,0,k]) 0 · w2[e,k,d] + b2[e,0,d].
-/
import proofs.«147781_j2121713845122_1_alg».proof.Proof.Gen.ReferenceIdeal.Read
import proofs.«147781_j2121713845122_1_alg».proof.Proof.Spec

noncomputable section

open scoped BigOperators

namespace Cert.Ffn.Ref

open Cert.ReferenceIdeal Cert.ReferenceIdeal.Read Idealize.ShloMosaic Idealize.ShloMosaic.ValueIdx

/-- The clamped hidden activation of the reference at (e, t, k). -/
theorem hidden_eq (x0 : SX.Idx → EReal) (x1 : SW1.Idx → EReal) (x2 : SB1.Idx → EReal) (e : Fin 4) (t : Fin 4096) (k : Fin 8192) :
    val_main_v3 (F := Ideal) x0 x1 x2 (ix3 e t k) = hid x0 x1 x2 e t k := by
  rw [val_main_v3_apply, val_main_v2_apply, val_main_v0_apply, val_main_v1_apply, val_main_call0_v0_apply,
    val_main_call0_cst_apply]
  have el : ∀ j : Fin 2048, lidx_main_v0 (ix3 e t k) j = ix3 e t j := fun j =>
    funext fun a => match a with | ⟨0, _⟩ => rfl | ⟨1, _⟩ => rfl | ⟨2, _⟩ => rfl
  have er : ∀ j : Fin 2048, ridx_main_v0 (ix3 e t k) j = ix3 e j k := fun j =>
    funext fun a => match a with | ⟨0, _⟩ => rfl | ⟨1, _⟩ => rfl | ⟨2, _⟩ => rfl
  have eb : idx_main_v1 (ix3 e t k) = ix3 e 0 k :=
    funext fun a => match a with | ⟨0, _⟩ => rfl | ⟨1, _⟩ => rfl | ⟨2, _⟩ => rfl
  simp only [el, er, eb]
  show max (_ + _) (Ideal.ofBits .f32 0x00000000#32) = _
  rw [Ideal.ofBits_zero_f32]
  rfl

/-- The reference's result array is `ffn` of the argument arrays. -/
theorem result_eq (x0 : SX.Idx → EReal) (x1 : SW1.Idx → EReal) (x2 : SB1.Idx → EReal) (x3 : SW2.Idx → EReal)
    (x4 : SB2.Idx → EReal) : val_main_v6 (F := Ideal) x0 x1 x2 x3 x4 = ffn x0 x1 x2 x3 x4 := by
  funext i
  obtain ⟨e, t, d, rfl⟩ : ∃ (e : Fin 4) (t : Fin 4096) (d : Fin 2048), i = ix3 e t d := ⟨i 0, i 1, i 2, eq_ix3 i⟩
  rw [val_main_v6_apply, val_main_v4_apply, val_main_v5_apply, ffn_ix3]
  have el : ∀ k : Fin 8192, lidx_main_v4 (ix3 e t d) k = ix3 e t k := fun k =>
    funext fun a => match a with | ⟨0, _⟩ => rfl | ⟨1, _⟩ => rfl | ⟨2, _⟩ => rfl
  have er : ∀ k : Fin 8192, ridx_main_v4 (ix3 e t d) k = ix3 e k d := fun k =>
    funext fun a => match a with | ⟨0, _⟩ => rfl | ⟨1, _⟩ => rfl | ⟨2, _⟩ => rfl
  have eb : idx_main_v5 (ix3 e t d) = ix3 e 0 d :=
    funext fun a => match a with | ⟨0, _⟩ => rfl | ⟨1, _⟩ => rfl | ⟨2, _⟩ => rfl
  simp only [el, er, eb]
  unfold ffnAt
  refine congrArg (· + x4 (ix3 e 0 d)) (Finset.sum_congr rfl fun k _ => ?_)
  rw [hidden_eq]

end Cert.Ffn.Ref

end
-- ==== Proof.lean ====
/-
  An expert feed-forward layer, y = relu (x · W1 + b1) · W2 + b2 for each of 4 experts, over x f32[4, 4096, 2048],
  W1 f32[4, 2048, 8192], b1 f32[4, 1, 8192], W2 f32[4, 8192, 2048], b2 f32[4, 1, 2048].

  The kernel tiles the rows by 256 and the hidden axis by 512. For one expert and one row tile it walks the sixteen
  hidden tiles in order, keeping a [256, 2048] accumulator: zero at the first tile, then for each tile
    acc += max (x_tile · W1[:, tile] + b1[tile]) 0 · W2[tile, :],
  and at the last tile it writes acc + b2 to the output block. The reference contracts the whole hidden axis at once.
  Over the extended reals (a change of float format the identity, a product into a zero accumulator its plain sum)
  both compute, at expert e, row t, column d,
    Σ_{k<8192} max (Σ_{j<2048} x[e,t,j]·W1[e,j,k] + b1[e,0,k]) 0 · W2[e,k,d]  +  b2[e,0,d]:
  the kernel's sixteen partial sums regroup into the one sum because addition of extended reals is commutative and
  associative and 0 + a = a. No distributivity or cancellation is used, so the finiteness of the inputs is not needed.

  Spec.lean states that function and the regrouping of the hidden axis into its tiles; RefSpec.lean reads the
  reference's result as that function; Pieces.lean, Payload.lean, Blocks.lean and Accum.lean read what one grid point
  leaves in the accumulator and the output block, and the accumulator after a run of points as a sum; KernelValue.lean
  puts the written blocks together into the result array. Here the five claims are assembled.
-/
import proofs.«147781_j2121713845122_1_alg».proof.Defs
import proofs.«147781_j2121713845122_1_alg».proof.Proof.Gen.Kernel
import proofs.«147781_j2121713845122_1_alg».proof.Proof.Gen.Kernel.Skeleton
import proofs.«147781_j2121713845122_1_alg».proof.Proof.Gen.Kernel.Launch
import proofs.«147781_j2121713845122_1_alg».proof.Proof.Gen.Kernel.Points
import proofs.«147781_j2121713845122_1_alg».proof.Proof.Gen.Kernel.Frame
import proofs.«147781_j2121713845122_1_alg».proof.Proof.Gen.KernelIdeal
import proofs.«147781_j2121713845122_1_alg».proof.Proof.Gen.KernelIdeal.Skeleton
import proofs.«147781_j2121713845122_1_alg».proof.Proof.Gen.KernelIdeal.Launch
import proofs.«147781_j2121713845122_1_alg».proof.Proof.Gen.KernelIdeal.Points
import proofs.«147781_j2121713845122_1_alg».proof.Proof.Gen.KernelIdeal.Frame
import proofs.«147781_j2121713845122_1_alg».proof.Proof.Gen.ReferenceIdeal
import proofs.«147781_j2121713845122_1_alg».proof.Proof.Gen.Pre_finite_inputs
import proofs.«147781_j2121713845122_1_alg».proof.Proof.Gen.KernelIdeal.Value
import proofs.«147781_j2121713845122_1_alg».proof.Proof.Gen.ReferenceIdeal.Run
import proofs.«147781_j2121713845122_1_alg».proof.Proof.Gen.ReferenceIdeal.Read
import proofs.«147781_j2121713845122_1_alg».proof.Proof.KernelValue
import proofs.«147781_j2121713845122_1_alg».proof.Proof.RefSpec
import Idealize.ShloMosaic.Adequacy
import Idealize.ShloMosaic.Init

noncomputable section

namespace Cert.Proof

open Idealize.ShloMosaic Idealize.SL.Sem

/-- The kernel as printed runs to completion and leaves its five arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is nine whole-array operations in a row: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel ends with the layer's function of its arguments in its result array, and the reference ends
    with the same function of its own arguments; the arguments agree. -/
theorem algebraic : Cert.algebraic_KernelIdeal_ReferenceIdeal := by
  intro m ρ m' ρ' _ hagree
  refine ⟨fun c => Cert.KernelIdeal.FfnValue.result m c, Cert.KernelIdeal.FfnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Ffn.Ref.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
